-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : IVec S1600000 32) (main_arg3 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩

abbrev nBuf : Space → Nat
  | .hbm => 45
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x1, .f32⟩
  | .local _ .vmem, ⟨10, _⟩ => ⟨S10000x1, .f32⟩
  | .local _ .vmem, ⟨11, _⟩ => ⟨S10000x128, .f32⟩
  | .local _ .vmem, ⟨12, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The two whole-array functions the program's kernel regions compute, over the extended reals.

  With `N = 100000` nodes and `D = 128` features:
  * `rowScale a s`: row `r` of `a : [N, D]` multiplied by the scalar `s (r, 0)` of a column `s : [N, 1]`
    (the source-side degree normalisation `feat · out_deg^(-1/2)`);
  * `mmRowScale a w s`: the matrix product `a · w` with `w : [D, D]`, row `r` of the product then multiplied by `s (r, 0)`
    (the dense transform followed by the destination-side normalisation). The product is taken first and the
    scalar applied to the finished sum, on both sides of the equivalence, so no distributive law is involved.
-/
import Idealize.ShloMosaic.PureOps.Ideal
import Idealize.ShloMosaic.Lib.ValueIdx

noncomputable section

namespace Cert.Spec

open Idealize.ShloMosaic Idealize.ShloMosaic.ValueIdx
open scoped BigOperators

abbrev SNxD : Shape := ⟨2, ![100000, 128]⟩
abbrev SNx1 : Shape := ⟨2, ![100000, 1]⟩
abbrev SDxD : Shape := ⟨2, ![128, 128]⟩

/-- Each row of `a` times that row's entry of the column `s`. -/
def rowScale (a : SNxD.Idx → EReal) (s : SNx1.Idx → EReal) : SNxD.Idx → EReal :=
  fun i => a i * s (ix2 (i 0) (0 : Fin 1))

theorem rowScale_apply (a : SNxD.Idx → EReal) (s : SNx1.Idx → EReal) (r : Fin 100000) (q : Fin 128) :
    rowScale a s (ix2 r q) = a (ix2 r q) * s (ix2 r (0 : Fin 1)) := rfl

/-- The product `a · w`, each row then times that row's entry of the column `s`. -/
def mmRowScale (a : SNxD.Idx → EReal) (w : SDxD.Idx → EReal) (s : SNx1.Idx → EReal) : SNxD.Idx → EReal :=
  fun i => (∑ k : Fin 128, a (ix2 (i 0) k) * w (ix2 k (i 1))) * s (ix2 (i 0) (0 : Fin 1))

theorem mmRowScale_apply (a : SNxD.Idx → EReal) (w : SDxD.Idx → EReal) (s : SNx1.Idx → EReal) (r : Fin 100000) (q : Fin 128) :
    mmRowScale a w s (ix2 r q) = (∑ k : Fin 128, a (ix2 r k) * w (ix2 k q)) * s (ix2 r (0 : Fin 1)) := rfl

end Cert.Spec

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.RefBridge.lean ====
/-
  The reference's stages as the two whole-array functions.

  The reference computes, with `dOut = max(1, #{e : src e = ·})^(-1/2)` and `dIn = max(1, #{e : dst e = ·})^(-1/2)` as vectors
  over the nodes, `featSrc = feat · dOut[:, None]`, `agg = segment_sum(featSrc[src], dst)`, and
  `(agg @ weight) · dIn[:, None]`. Here:
  * the product by a column broadcast along the feature axis is `rowScale` by that column (`featSrc_eq`);
  * the gather followed by the accumulating scatter is ONE function `agg` of the array it gathers from and of the two
    index vectors; nothing about it is needed but that it is a function (`aggRef_eq`);
  * the `dot_general` followed by the product with the broadcast column is `mmRowScale` (`result_eq`).
  The columns are spelt as reshapes `[N] → [N, 1]` of the degree vectors, the form the kernel's program builds them in;
  the reference's `broadcast_in_dim` along axis `0` is the same array (`Column.shapeCast_eq_broadcastInDim`).
-/
import proofs.«154166_j17008070492258_1_alg».proof.Proof.Gen.ReferenceIdeal.Read
import proofs.«154166_j17008070492258_1_alg».proof.Proof.Spec
import proofs.«154166_j17008070492258_1_alg».proof.Proof.LibColumn

noncomputable section

namespace Cert.ReferenceIdeal.Bridge

open Cert.ReferenceIdeal Cert.ReferenceIdeal.Facts₀ Cert.ReferenceIdeal.Read
open Idealize.ShloMosaic Idealize.ShloMosaic.ValueIdx
open scoped BigOperators

/-- A degree vector as a column, by reshape (`h`: the two shapes have as many elements). -/
abbrev colOf (v : FVec Ideal S100000 .f32) (h : S100000.ShapeCasts S100000x1) : FVec Ideal S100000x1 .f32 :=
  shapeCast S100000x1 v h

variable (h : S100000.ShapeCasts S100000x1)

/-- The reference's column (a `broadcast_in_dim` along axis `0`) is that reshape. -/
theorem v7_eq (x2 : IVec S1600000 32) :
    val_main_v7 (F := Ideal) x2 = colOf (val_main_v6 (F := Ideal) x2) h :=
  (Column.shapeCast_eq_broadcastInDim (val_main_v6 (F := Ideal) x2) h ![0] rfl bcast_S100000_S100000x1_0).symm

theorem v27_eq (x3 : IVec S1600000 32) :
    val_main_v27 (F := Ideal) x3 = colOf (val_main_v26 (F := Ideal) x3) h :=
  (Column.shapeCast_eq_broadcastInDim (val_main_v26 (F := Ideal) x3) h ![0] rfl bcast_S100000_S100000x1_0).symm

/-- The source-scaled features are `rowScale` of the features by the out-degree column. -/
theorem featSrc_eq (x0 : FVec Ideal S100000x128 .f32) (x2 : IVec S1600000 32) :
    val_main_v9 (F := Ideal) x0 x2 = Spec.rowScale x0 (colOf (val_main_v6 (F := Ideal) x2) h) := by
  funext i
  obtain ⟨r, q, rfl⟩ : ∃ (r : Fin 100000) (q : Fin 128), i = ix2 r q := ⟨i 0, i 1, eq_ix2 i⟩
  rw [val_main_v9_apply, Spec.rowScale_apply, ← v7_eq h]
  unfold val_main_v8
  rw [Column.broadcastInDim_a1_ab_apply (by decide) _ ![0, 1] rfl rfl]
  rfl

/-- Gather the rows `src` of an array and add them into the rows `dst` of a zero array: the reference's aggregation, as a
    function of the array gathered from. -/
def agg (fs : FVec Ideal S100000x128 .f32) (x2 x3 : IVec S1600000 32) : FVec Ideal S100000x128 .f32 :=
  Host.scatterAdd (F := Ideal) scatter_S100000x128_S1600000x1_S1600000x128_1_0_0_1 (val_main_v17 (F := Ideal)) (val_main_v18 (F := Ideal) x3)
    (Host.gather gather_S100000x128_S1600000x1_S1600000x128_1_0_n_n_0_1_1128 fs (val_main_v15 (F := Ideal) x2))

theorem aggRef_eq (x0 : FVec Ideal S100000x128 .f32) (x2 x3 : IVec S1600000 32) :
    val_main_v19 (F := Ideal) x0 x2 x3 = agg (val_main_v9 (F := Ideal) x0 x2) x2 x3 := rfl

/-- The operand indices of the reference's product at `(r, q)` and contraction index `k` are `(r, k)` and `(k, q)`. -/
theorem lidx_eq (r : Fin 100000) (q k : Fin 128) : lidx_main_v20 (ix2 r q) k = ix2 r k :=
  funext fun a => Fin.ext (by match a with | ⟨0, _⟩ => rfl | ⟨1, _⟩ => rfl)
theorem ridx_eq (r : Fin 100000) (q k : Fin 128) : ridx_main_v20 (ix2 r q) k = ix2 k q :=
  funext fun a => Fin.ext (by match a with | ⟨0, _⟩ => rfl | ⟨1, _⟩ => rfl)

/-- The reference's result: the aggregated features times the weight, each row then times the in-degree column's entry. -/
theorem result_eq (x0 : FVec Ideal S100000x128 .f32) (x1 : FVec Ideal S128x128 .f32) (x2 x3 : IVec S1600000 32) :
    val_main_v29 (F := Ideal) x0 x1 x2 x3
      = Spec.mmRowScale (agg (Spec.rowScale x0 (colOf (val_main_v6 (F := Ideal) x2) h)) x2 x3) x1 (colOf (val_main_v26 (F := Ideal) x3) h) := by
  funext i
  obtain ⟨r, q, rfl⟩ : ∃ (r : Fin 100000) (q : Fin 128), i = ix2 r q := ⟨i 0, i 1, eq_ix2 i⟩
  rw [val_main_v29_apply, val_main_v20_apply, Spec.mmRowScale_apply, ← v27_eq h, aggRef_eq, featSrc_eq h]
  unfold val_main_v28
  rw [Column.broadcastInDim_a1_ab_apply (by decide) _ ![0, 1] rfl rfl]
  simp only [lidx_eq, ridx_eq, Ideal.mulf_def]

end Cert.ReferenceIdeal.Bridge

end
-- ==== Proof.Boundary.lean ====
/-
  What the kernel program's buffers hold where its two kernel regions are entered, as functions of the arguments.

  Before the first region the program computes the two degree vectors
  `max(1, #{e : idx e = ·})^(-1/2)` (from `src` and from `dst`) with exactly the reference's operations and literals, and
  reshapes each to a column; the feature array is untouched. Between the regions it gathers the rows `src` of the first
  region's result and adds them into the rows `dst` of a zero array — the reference's aggregation `agg`, applied to
  whatever the first region left; the weight, the index vectors and the in-degree column are untouched.
  Each fact is read off the fold of host operations that the boundary's contents are, back to the launch memory.
-/
import proofs.«154166_j17008070492258_1_alg».proof.Proof.Gen.KernelIdeal.Frame
import proofs.«154166_j17008070492258_1_alg».proof.Proof.RefBridge
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first region's entry -/

theorem W5_arg0 (c : Dev nD) : W5 m ρ c (Proc.devRef .tc main_arg0) = m ((c : Thread nD τ).loc main_arg0) := by
  show StableHlo.after hostOps0_4 (W4 m ρ c) (Proc.devRef .tc main_arg0) = _
  after_results
theorem W5_arg1 (c : Dev nD) : W5 m ρ c (Proc.devRef .tc main_arg1) = m ((c : Thread nD τ).loc main_arg1) := by
  show StableHlo.after hostOps0_4 (W4 m ρ c) (Proc.devRef .tc main_arg1) = _
  after_results
theorem W5_arg2 (c : Dev nD) : W5 m ρ c (Proc.devRef .tc main_arg2) = m ((c : Thread nD τ).loc main_arg2) := by
  show StableHlo.after hostOps0_4 (W4 m ρ c) (Proc.devRef .tc main_arg2) = _
  after_results
theorem W5_arg3 (c : Dev nD) : W5 m ρ c (Proc.devRef .tc main_arg3) = m ((c : Thread nD τ).loc main_arg3) := by
  show StableHlo.after hostOps0_4 (W4 m ρ c) (Proc.devRef .tc main_arg3) = _
  after_results

/-- The clipped degree count of an index vector: `max(1, #{e : x e = ·})`, as the program computes it (a zero vector, ones
    added at the positions `x` names, then the maximum with the splat `1`). -/
abbrev degTerm (x : IVec S1600000 32) : FVec Ideal S100000 .f32 :=
  maximumf (broadcastInDim S100000 ![] bcast_S_S100000 (id (constant S_ .f32 0x3F800000#32)))
    (Host.scatterAdd (F := Ideal) scatter_S100000_S1600000x1_S1600000_n_0_0_1 (broadcastInDim S100000 ![] bcast_S_S100000 (constant S_ .f32 0x00000000#32))
      (broadcastInDim S1600000x1 ![0] bcast_S1600000_S1600000x1_0 x) (broadcastInDim S1600000 ![] bcast_S_S1600000 (constant S_ .f32 0x3F800000#32)))

/-- Its power `-1/2`. -/
abbrev degInvSqrt (x : IVec S1600000 32) : FVec Ideal S100000 .f32 :=
  Host.powf (F := Ideal) (degTerm x) (broadcastInDim S100000 ![] bcast_S_S100000 (constant S_ .f32 0xBF000000#32))

/-- These are the reference's stages, operation for operation and literal for literal. -/
theorem degInvSqrt_out (x2 : IVec S1600000 32) : degInvSqrt x2 = Cert.ReferenceIdeal.Read.val_main_v6 (F := Ideal) x2 := rfl
theorem degInvSqrt_in (x3 : IVec S1600000 32) : degInvSqrt x3 = Cert.ReferenceIdeal.Read.val_main_v26 (F := Ideal) x3 := rfl

/-! ### The stretches before the region, each from any contents -/

/-- The first stretch: the splat of ones, the out-degree count, and the clip's bound. -/
theorem s0_v0 (W : Valuation τ sig (Elt Ideal)) :
    StableHlo.after (hostOps0 (F := Ideal)) W (Proc.devRef .tc main_v0)
      = broadcastInDim S1600000 ![] bcast_S_S1600000 (constant (F := Ideal) S_ .f32 0x3F800000#32) := by
  after_results
theorem s0_v3 (W : Valuation τ sig (Elt Ideal)) :
    StableHlo.after (hostOps0 (F := Ideal)) W (Proc.devRef .tc main_v3)
      = Host.scatterAdd (F := Ideal) scatter_S100000_S1600000x1_S1600000_n_0_0_1 (broadcastInDim S100000 ![] bcast_S_S100000 (constant S_ .f32 0x00000000#32))
          (broadcastInDim S1600000x1 ![0] bcast_S1600000_S1600000x1_0 (W (Proc.devRef .tc main_arg2))) (broadcastInDim S1600000 ![] bcast_S_S1600000 (constant S_ .f32 0x3F800000#32)) := by
  after_results
theorem s0_cst1 (W : Valuation τ sig (Elt Ideal)) :
    StableHlo.after (hostOps0 (F := Ideal)) W (Proc.devRef .tc main_cst_1) = constant (F := Ideal) S_ .f32 0x3F800000#32 := by
  after_results
theorem s0_arg3 (W : Valuation τ sig (Elt Ideal)) :
    StableHlo.after (hostOps0 (F := Ideal)) W (Proc.devRef .tc main_arg3) = W (Proc.devRef .tc main_arg3) := by
  after_results

/-- The second stretch (the clip of the out-degree count). -/
theorem s1_v4 (W : Valuation τ sig (Elt Ideal)) :
    StableHlo.after (hostOps0_1 (F := Ideal)) W (Proc.devRef .tc main_v4)
      = maximumf (F := Ideal) (φ := .f32) (s := S100000) (broadcastInDim (s := S_) (α := Ideal .f32) S100000 ![] bcast_S_S100000 (id (α := FVec Ideal S_ .f32) (W (Proc.devRef .tc main_cst_1)))) (W (Proc.devRef .tc main_v3)) := by
  after_results; rfl
theorem s1_v0 (W : Valuation τ sig (Elt Ideal)) :
    StableHlo.after (hostOps0_1 (F := Ideal)) W (Proc.devRef .tc main_v0) = W (Proc.devRef .tc main_v0) := by
  after_results
theorem s1_arg3 (W : Valuation τ sig (Elt Ideal)) :
    StableHlo.after (hostOps0_1 (F := Ideal)) W (Proc.devRef .tc main_arg3) = W (Proc.devRef .tc main_arg3) := by
  after_results

/-- The third stretch: the in-degree count (it adds the same splat of ones) and the second clip's bound. -/
theorem s2_v7 (W : Valuation τ sig (Elt Ideal)) :
    StableHlo.after (hostOps0_2 (F := Ideal)) W (Proc.devRef .tc main_v7)
      = Host.scatterAdd (F := Ideal) scatter_S100000_S1600000x1_S1600000_n_0_0_1 (broadcastInDim S100000 ![] bcast_S_S100000 (constant S_ .f32 0x00000000#32))
          (broadcastInDim S1600000x1 ![0] bcast_S1600000_S1600000x1_0 (W (Proc.devRef .tc main_arg3))) (W (Proc.devRef .tc main_v0)) := by
  after_results
theorem s2_cst3 (W : Valuation τ sig (Elt Ideal)) :
    StableHlo.after (hostOps0_2 (F := Ideal)) W (Proc.devRef .tc main_cst_3) = constant (F := Ideal) S_ .f32 0x3F800000#32 := by
  after_results
theorem s2_v4 (W : Valuation τ sig (Elt Ideal)) :
    StableHlo.after (hostOps0_2 (F := Ideal)) W (Proc.devRef .tc main_v4) = W (Proc.devRef .tc main_v4) := by
  after_results

/-- The fourth stretch (the clip of the in-degree count). -/
theorem s3_v8 (W : Valuation τ sig (Elt Ideal)) :
    StableHlo.after (hostOps0_3 (F := Ideal)) W (Proc.devRef .tc main_v8)
      = maximumf (F := Ideal) (φ := .f32) (s := S100000) (broadcastInDim (s := S_) (α := Ideal .f32) S100000 ![] bcast_S_S100000 (id (α := FVec Ideal S_ .f32) (W (Proc.devRef .tc main_cst_3)))) (W (Proc.devRef .tc main_v7)) := by
  after_results; rfl
theorem s3_v4 (W : Valuation τ sig (Elt Ideal)) :
    StableHlo.after (hostOps0_3 (F := Ideal)) W (Proc.devRef .tc main_v4) = W (Proc.devRef .tc main_v4) := by
  after_results

/-- The clipped out-degree and in-degree counts, as the first region's last host stretch finds them. -/
theorem W4_v4 (c : Dev nD) : W4 m ρ c (Proc.devRef .tc main_v4) = degTerm (m ((c : Thread nD τ).loc main_arg2)) := by
  refine (s3_v4 (W3 m ρ c)).trans ?_
  refine (s2_v4 (W2 m ρ c)).trans ?_
  refine (s1_v4 (W1 m ρ c)).trans ?_
  have e1 : W1 m ρ c (Proc.devRef .tc main_cst_1) = constant (F := Ideal) S_ .f32 0x3F800000#32 := s0_cst1 (W0 m ρ c)
  have e3 : W1 m ρ c (Proc.devRef .tc main_v3) = _ := s0_v3 (W0 m ρ c)
  rw [e1, e3]
theorem W4_v8 (c : Dev nD) : W4 m ρ c (Proc.devRef .tc main_v8) = degTerm (m ((c : Thread nD τ).loc main_arg3)) := by
  refine (s3_v8 (W3 m ρ c)).trans ?_
  have e1 : W3 m ρ c (Proc.devRef .tc main_cst_3) = constant (F := Ideal) S_ .f32 0x3F800000#32 := s2_cst3 (W2 m ρ c)
  have e7 : W3 m ρ c (Proc.devRef .tc main_v7) = _ := s2_v7 (W2 m ρ c)
  have e0 : W2 m ρ c (Proc.devRef .tc main_v0) = _ := (s1_v0 (W1 m ρ c)).trans (s0_v0 (W0 m ρ c))
  have ea : W2 m ρ c (Proc.devRef .tc main_arg3) = W0 m ρ c (Proc.devRef .tc main_arg3) := (s1_arg3 (W1 m ρ c)).trans (s0_arg3 (W0 m ρ c))
  rw [e1, e7, e0, ea]

/-- The last stretch before the region, from any contents: each column is the reshape of the power `-1/2` of a count. -/
theorem s4_v11 (W : Valuation τ sig (Elt Ideal)) :
    StableHlo.after (hostOps0_4 (F := Ideal)) W (Proc.devRef .tc main_v11)
      = shapeCast S100000x1 (Host.powf (F := Ideal) (W (Proc.devRef .tc main_v4)) (broadcastInDim S100000 ![] bcast_S_S100000 (constant S_ .f32 0xBF000000#32))) shapeCasts_S100000_S100000x1 := by
  after_results; rfl
theorem s4_v14 (W : Valuation τ sig (Elt Ideal)) :
    StableHlo.after (hostOps0_4 (F := Ideal)) W (Proc.devRef .tc main_v14)
      = shapeCast S100000x1 (Host.powf (F := Ideal) (W (Proc.devRef .tc main_v8)) (broadcastInDim S100000 ![] bcast_S_S100000 (constant S_ .f32 0xBF000000#32))) shapeCasts_S100000_S100000x1 := by
  after_results; rfl

/-- The out-degree column: the reference's out-degree vector, reshaped. -/
theorem W5_v11 (c : Dev nD) : W5 m ρ c (Proc.devRef .tc main_v11)
    = Cert.ReferenceIdeal.Bridge.colOf (Cert.ReferenceIdeal.Read.val_main_v6 (F := Ideal) (m ((c : Thread nD τ).loc main_arg2))) shapeCasts_S100000_S100000x1 := by
  refine (s4_v11 (W4 m ρ c)).trans ?_
  rw [W4_v4, ← degInvSqrt_out]

/-- The in-degree column: the reference's in-degree vector, reshaped. -/
theorem W5_v14 (c : Dev nD) : W5 m ρ c (Proc.devRef .tc main_v14)
    = Cert.ReferenceIdeal.Bridge.colOf (Cert.ReferenceIdeal.Read.val_main_v26 (F := Ideal) (m ((c : Thread nD τ).loc main_arg3))) shapeCasts_S100000_S100000x1 := by
  refine (s4_v14 (W4 m ρ c)).trans ?_
  rw [W4_v8, ← degInvSqrt_in]

/-! ## After the first region: it writes its result array only -/

theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_v14 (c : Dev nD) : W6 m ρ c (Proc.devRef .tc main_v14)
    = Cert.ReferenceIdeal.Bridge.colOf (Cert.ReferenceIdeal.Read.val_main_v26 (F := Ideal) (m ((c : Thread nD τ).loc main_arg3))) shapeCasts_S100000_S100000x1 :=
  (W6_of_ne m ρ c main_v14 (by decide)).trans (W5_v14 m ρ c)

/-! ## At the second region's entry -/

/-- The aggregated features: `agg` of what the first region left in its result array. -/
theorem W7_v25 (c : Dev nD) : W7 m ρ c (Proc.devRef .tc main_v25)
    = Cert.ReferenceIdeal.Bridge.agg (W6 m ρ c (Proc.devRef .tc main_v15)) (W6 m ρ c (Proc.devRef .tc main_arg2)) (W6 m ρ c (Proc.devRef .tc main_arg3)) := by
  show StableHlo.after hostOps1 (W6 m ρ c) (Proc.devRef .tc main_v25) = _
  after_results; rfl
theorem W7_arg1 (c : Dev nD) : W7 m ρ c (Proc.devRef .tc main_arg1) = W6 m ρ c (Proc.devRef .tc main_arg1) := by
  show StableHlo.after hostOps1 (W6 m ρ c) (Proc.devRef .tc main_arg1) = _
  after_results
theorem W7_v14 (c : Dev nD) : W7 m ρ c (Proc.devRef .tc main_v14) = W6 m ρ c (Proc.devRef .tc main_v14) := by
  show StableHlo.after hostOps1 (W6 m ρ c) (Proc.devRef .tc main_v14) = _
  after_results

end Cert.KernelIdeal.Boundary

end
-- ==== Proof.Region0.lean ====
/-
  The first kernel region (the row scale), read as a value.

  The region runs over ten grid points; point `t` stages rows `[10000 t, 10000 t + 10000)` of the feature array and of
  the degree column, multiplies each staged row by its column entry, and writes the block back to the same rows of the
  result. So, whatever the buffers hold when the region is entered, the result array ends as `rowScale` of the feature
  array and the column: each write-back is the corresponding block of that one function, and the ten blocks tile the
  array.
-/
import proofs.«154166_j17008070492258_1_alg».proof.Proof.Gen.KernelIdeal.Frame
import proofs.«154166_j17008070492258_1_alg».proof.Proof.Spec
import proofs.«154166_j17008070492258_1_alg».proof.Proof.LibColumn
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's product at `(p, q)` of a staged block: the staged feature entry times the staged column's entry of row `p`. -/
theorem pay_apply (x0 : Vec Ideal S10000x128 .f32) (x1 : Vec Ideal S10000x1 .f32) (p : Fin 10000) (q : Fin 128) :
    k0_pay1 x0 x1 (ix2 p q) = x0 (ix2 p q) * x1 (ix2 p (0 : Fin 1)) := by
  unfold k0_pay1
  rw [mulf_apply, shapeCast_self, Column.broadcastTo_a1_ab_apply (by decide)]

/-- The printed index maps over the grid: all three windows sit on block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `rowScale` of the two arrays as the region finds them. -/
theorem flushed_eq (c : Dev nD) (t : Fin cfg0.N) :
    (dat0 V c).flushed 2 t = ((cfg0.win 2).blk t).view.read (Elt Ideal) (Spec.rowScale (V c main_arg0) (V c main_v11)) := by
  show (cfg0.win 2).cut (grid0.coords t) ((dat0 V c).after 2 t) = _
  rw [after0_2]
  unfold out0_2
  rw [View.canon_unit_zero hz]
  simp only [View.ld_unit_zero (S := S10000x128) hz, View.ld_unit_zero (S := S10000x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = Spec.rowScale (V c main_arg0) (V c main_v11) (((cfg0.win 2).blk t).view.emb (ix2 p q))
  refine (pay_apply (iblk0 V c 0 t) (iblk0 V c 1 t) p q).trans ?_
  have ht : t.val < 10 := lt_of_lt_of_eq t.isLt N_0
  have hp : p.val < 10000 := p.isLt
  have hq : q.val < 128 := q.isLt
  have hr : t.val * 10000 + p.val < 100000 := by omega
  have hb2 : ((cfg0.win 2).blk t).view.emb (ix2 p q) = (ix2 (⟨t.val * 10000 + p.val, hr⟩ : Fin 100000) q : S100000x128.Idx) := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  have h0 : iblk0 V c 0 t (ix2 p q) = V c main_arg0 (ix2 (⟨t.val * 10000 + p.val, hr⟩ : Fin 100000) q) := by
    show V c main_arg0 (((cfg0.win 0).blk t).view.emb (ix2 p q)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * q.val = q.val; omega
  have h1 : iblk0 V c 1 t (ix2 p (0 : Fin 1)) = V c main_v11 (ix2 (⟨t.val * 10000 + p.val, hr⟩ : Fin 100000) (0 : Fin 1)) := by
    show V c main_v11 (((cfg0.win 1).blk t).view.emb (ix2 p (0 : Fin 1))) = _
    refine congrArg (V c main_v11) ?_
    funext a; apply Fin.ext
    match a with
    | ⟨0, _⟩ => show win0_1.index t (0 : Fin 2) * 10000 + 1 * p.val = t.val * 10000 + p.val; omega
    | ⟨1, _⟩ => show win0_1.index t (1 : Fin 2) * 1 + 1 * 0 = 0; omega
  rw [h0, h1, hb2]
  rfl

/-- An index of the result array lies in point `t`'s block iff each coordinate lies in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v15).slice (win0_2.rect t)).set ↔ _
  rw [View.set_slice_whole, Rect.mem_set_unit]
  exact Iff.rfl

/-- The ten blocks tile the result: row `r` lies in the block of point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have htN : (i 0).val / 10000 < cfg0.N := lt_of_lt_of_eq (by omega : (i 0).val / 10000 < 10) N_0.symm
  obtain ⟨e0, e1, e2, e3, e4, e5⟩ := idx_facts ⟨(i 0).val / 10000, htN⟩
  have e4' : win0_2.index ⟨(i 0).val / 10000, htN⟩ (0 : Fin 2) = (i 0).val / 10000 := e4
  refine ⟨⟨(i 0).val / 10000, htN⟩, flush0_2 _, ?_⟩
  rw [mem_blk]
  intro a
  match a with
  | ⟨0, _⟩ =>
    show win0_2.index ⟨(i 0).val / 10000, htN⟩ (0 : Fin 2) * 10000 ≤ (i 0).val ∧ (i 0).val < win0_2.index ⟨(i 0).val / 10000, htN⟩ (0 : Fin 2) * 10000 + 10000
    omega
  | ⟨1, _⟩ =>
    show win0_2.index ⟨(i 0).val / 10000, htN⟩ (1 : Fin 2) * 128 ≤ (i 1).val ∧ (i 1).val < win0_2.index ⟨(i 0).val / 10000, htN⟩ (1 : Fin 2) * 128 + 128
    omega

/-- The result array after the region: `rowScale` of the feature array and the column as the region finds them. -/
theorem arr (c : Dev nD) : (dat0 V c).arrAt 2 cfg0.N = Spec.rowScale (V c main_arg0) (V c main_v11) :=
  (dat0 V c).arrAt_eq_of_cover 2 _ (fun t _ => flushed_eq V c t) cover

end Cert.KernelIdeal.Region0

end
-- ==== Proof.Region1.lean ====
/-
  The second kernel region (the dense transform and the destination-side scale), read as a value.

  Point `t` of its ten grid points stages rows `[10000 t, 10000 t + 10000)` of the aggregated features and of the degree
  column, and the whole `128 × 128` weight; the body rounds both matrix operands to bf16 (the identity on the extended
  reals), multiplies them into a zero accumulator, multiplies each row of the product by its column entry, and the
  block is written back to the same rows of the result. A row of a matrix product depends on that row of the left
  operand only, so every write-back is the corresponding block of `mmRowScale` of the three arrays as the region finds
  them, and the ten blocks tile the result.
-/
import proofs.«154166_j17008070492258_1_alg».proof.Proof.Gen.KernelIdeal.Frame
import proofs.«154166_j17008070492258_1_alg».proof.Proof.Spec
import proofs.«154166_j17008070492258_1_alg».proof.Proof.LibColumn
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-! ## The block product as a sum over the contracted axis -/

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Into a zero accumulator the block product at `(p, q)` is `∑ k, x (p, k) · w (k, q)`. -/
theorem mm_apply (x : FVec Ideal S10000x128 .bf16) (w : FVec Ideal S128x128 .bf16) (p : Fin 10000) (q : Fin 128) :
    matmul dot_S10000x128_S128x128_S10000x128_1_0_0_1_n_n none x w (constant S10000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's result at `(p, q)` of the staged blocks: row `p` of the staged left block against column `q` of the
    weight, times the staged column's entry of row `p`. -/
theorem pay_apply (x0 : Vec Ideal S10000x128 .f32) (x1 : Vec Ideal S128x128 .f32) (x2 : Vec Ideal S10000x1 .f32) (p : Fin 10000) (q : Fin 128) :
    k1_pay1 x0 x1 x2 (ix2 p q) = (∑ k : Fin 128, x0 (ix2 p k) * x1 (ix2 k q)) * x2 (ix2 p (0 : Fin 1)) := by
  unfold k1_pay1
  rw [mulf_apply, mm_apply, Column.broadcastTo_a1_ab_apply (by decide)]
  simp only [shapeCast_self, truncf_apply]

/-! ## From blocks to the array -/

/-- The printed index maps over the grid: the left operand, the column and the result sit on block row `t`; the weight
    is its one whole block at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `mmRowScale` of the three arrays as the region finds them. -/
theorem flushed_eq (c : Dev nD) (t : Fin cfg1.N) :
    (dat1 V c).flushed 3 t = ((cfg1.win 3).blk t).view.read (Elt Ideal) (Spec.mmRowScale (V c main_v25) (V c main_arg1) (V c main_v14)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S10000x1) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (ix2 p q)
    = Spec.mmRowScale (V c main_v25) (V c main_arg1) (V c main_v14) (((cfg1.win 3).blk t).view.emb (ix2 p q))
  refine (pay_apply (iblk1 V c 0 t) (iblk1 V c 1 t) (iblk1 V c 2 t) p q).trans ?_
  have ht : t.val < 10 := lt_of_lt_of_eq t.isLt N_1
  have hp : p.val < 10000 := p.isLt
  have hq : q.val < 128 := q.isLt
  have hr : t.val * 10000 + p.val < 100000 := by omega
  have hb3 : ((cfg1.win 3).blk t).view.emb (ix2 p q) = (ix2 (⟨t.val * 10000 + p.val, hr⟩ : Fin 100000) q : S100000x128.Idx) := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  have h0 : ∀ k : Fin 128, iblk1 V c 0 t (ix2 p k) = V c main_v25 (ix2 (⟨t.val * 10000 + p.val, hr⟩ : Fin 100000) k) := by
    intro k
    have hk : k.val < 128 := k.isLt
    show V c main_v25 (((cfg1.win 0).blk t).view.emb (ix2 p k)) = _
    refine congrArg (V c main_v25) ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  have h1 : ∀ k : Fin 128, iblk1 V c 1 t (ix2 k q) = V c main_arg1 (ix2 k q) := by
    intro k
    have hk : k.val < 128 := k.isLt
    show V c main_arg1 (((cfg1.win 1).blk t).view.emb (ix2 k q)) = _
    refine congrArg (V c main_arg1) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have h2 : iblk1 V c 2 t (ix2 p (0 : Fin 1)) = V c main_v14 (ix2 (⟨t.val * 10000 + p.val, hr⟩ : Fin 100000) (0 : Fin 1)) := by
    show V c main_v14 (((cfg1.win 2).blk t).view.emb (ix2 p (0 : Fin 1))) = _
    refine congrArg (V c main_v14) ?_
    funext a; apply Fin.ext
    match a with
    | ⟨0, _⟩ => show win1_2.index t (0 : Fin 2) * 10000 + 1 * p.val = t.val * 10000 + p.val; omega
    | ⟨1, _⟩ => show win1_2.index t (1 : Fin 2) * 1 + 1 * 0 = 0; omega
  rw [hb3, h2, Spec.mmRowScale_apply]
  refine congrArg (· * V c main_v14 (ix2 (⟨t.val * 10000 + p.val, hr⟩ : Fin 100000) (0 : Fin 1))) ?_
  exact Finset.sum_congr rfl fun k _ => by rw [h0 k, h1 k]

/-- An index of the result array lies in point `t`'s block iff each coordinate lies in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v26).slice (win1_3.rect t)).set ↔ _
  rw [View.set_slice_whole, Rect.mem_set_unit]
  exact Iff.rfl

/-- The ten blocks tile the result: row `r` lies in the block of point `r / 10000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have htN : (i 0).val / 10000 < cfg1.N := lt_of_lt_of_eq (by omega : (i 0).val / 10000 < 10) N_1.symm
  obtain ⟨e0, e1, e2, e3, e4, e5, e6, e7⟩ := idx_facts ⟨(i 0).val / 10000, htN⟩
  have e6' : win1_3.index ⟨(i 0).val / 10000, htN⟩ (0 : Fin 2) = (i 0).val / 10000 := e6
  refine ⟨⟨(i 0).val / 10000, htN⟩, flush1_3 _, ?_⟩
  rw [mem_blk]
  intro a
  match a with
  | ⟨0, _⟩ =>
    show win1_3.index ⟨(i 0).val / 10000, htN⟩ (0 : Fin 2) * 10000 ≤ (i 0).val ∧ (i 0).val < win1_3.index ⟨(i 0).val / 10000, htN⟩ (0 : Fin 2) * 10000 + 10000
    omega
  | ⟨1, _⟩ =>
    show win1_3.index ⟨(i 0).val / 10000, htN⟩ (1 : Fin 2) * 128 ≤ (i 1).val ∧ (i 1).val < win1_3.index ⟨(i 0).val / 10000, htN⟩ (1 : Fin 2) * 128 + 128
    omega

/-- The result array after the region: `mmRowScale` of the aggregated features, the weight and the column as the
    region finds them. -/
theorem arr (c : Dev nD) : (dat1 V c).arrAt 3 cfg1.N = Spec.mmRowScale (V c main_v25) (V c main_arg1) (V c main_v14) :=
  (dat1 V c).arrAt_eq_of_cover 3 _ (fun t _ => flushed_eq V c t) cover

end Cert.KernelIdeal.Region1

end
-- ==== Proof.KernelValue.lean ====
/-
  The kernel program's result as a function of its arguments.

  Chaining the boundaries: the first region leaves `rowScale feat dOutCol`; the host stretch between the regions turns
  that into `agg (rowScale feat dOutCol) src dst`; the second region leaves
  `mmRowScale (agg (rowScale feat dOutCol) src dst) weight dInCol`. That is the reference's result term
  (`Bridge.result_eq`), so the kernel program's result buffer ends at the reference's last stage of the same arguments.
-/
import proofs.«154166_j17008070492258_1_alg».proof.Proof.Boundary
import proofs.«154166_j17008070492258_1_alg».proof.Proof.Region0
import proofs.«154166_j17008070492258_1_alg».proof.Proof.Region1
import proofs.«154166_j17008070492258_1_alg».proof.Proof.RefBridge

set_option maxRecDepth 16384

noncomputable section

namespace Cert.KernelIdeal.Final

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the first region leaves in its result array: the features, each row times its out-degree factor. -/
theorem featSrc (c : Dev nD) : W6 m ρ c (Proc.devRef .tc main_v15)
    = Spec.rowScale (m ((c : Thread nD τ).loc main_arg0))
        (Cert.ReferenceIdeal.Bridge.colOf (Cert.ReferenceIdeal.Read.val_main_v6 (F := Ideal) (m ((c : Thread nD τ).loc main_arg2))) shapeCasts_S100000_S100000x1) := by
  refine (W6_arr m ρ c 2).trans ?_
  refine (Region0.arr (V5 m ρ) c).trans ?_
  show Spec.rowScale (W5 m ρ c (Proc.devRef .tc main_arg0)) (W5 m ρ c (Proc.devRef .tc main_v11)) = _
  rw [Boundary.W5_arg0, Boundary.W5_v11]

/-- What the second region is entered with as its left operand: the aggregation of the first region's result. -/
theorem aggregated (c : Dev nD) : W7 m ρ c (Proc.devRef .tc main_v25)
    = Cert.ReferenceIdeal.Bridge.agg (Spec.rowScale (m ((c : Thread nD τ).loc main_arg0))
        (Cert.ReferenceIdeal.Bridge.colOf (Cert.ReferenceIdeal.Read.val_main_v6 (F := Ideal) (m ((c : Thread nD τ).loc main_arg2))) shapeCasts_S100000_S100000x1))
        (m ((c : Thread nD τ).loc main_arg2)) (m ((c : Thread nD τ).loc main_arg3)) := by
  rw [Boundary.W7_v25, featSrc, Boundary.W6_arg2, Boundary.W6_arg3]

/-- The result buffer at the last boundary is the reference's last stage of the launch arguments. -/
theorem result (c : Dev nD) : W8 m ρ c (Proc.devRef .tc main_v26)
    = Cert.ReferenceIdeal.Read.val_main_v29 (F := Ideal) (m ((c : Thread nD τ).loc main_arg0)) (m ((c : Thread nD τ).loc main_arg1))
        (m ((c : Thread nD τ).loc main_arg2)) (m ((c : Thread nD τ).loc main_arg3)) := by
  rw [Cert.ReferenceIdeal.Bridge.result_eq shapeCasts_S100000_S100000x1]
  refine (W8_arr m ρ c 3).trans ?_
  refine (Region1.arr (V7 m ρ) c).trans ?_
  show Spec.mmRowScale (W7 m ρ c (Proc.devRef .tc main_v25)) (W7 m ρ c (Proc.devRef .tc main_arg1)) (W7 m ρ c (Proc.devRef .tc main_v14)) = _
  rw [aggregated, Boundary.W7_arg1, Boundary.W6_arg1, Boundary.W7_v14, Boundary.W6_v14]

end Cert.KernelIdeal.Final

end
-- ==== Proof.lean ====
/-
  The certificate: a graph convolution with symmetric degree normalisation,
  `out = (segment_sum((feat · dOut[:, None])[src], dst) @ weight) · dIn[:, None]`,
  `dOut = max(1, out-degree)^(-1/2)`, `dIn = max(1, in-degree)^(-1/2)`, computed by a program with two kernel regions
  (the row scale; the matrix product fused with the second row scale) against the plain array program.

  Over the extended reals the two programs apply the same operations in the same order: the degree vectors and the
  gather / scatter aggregation are the same host operations with the same literals on both sides; the first region's
  blockwise row scale is the reference's product with a broadcast column; the second region's blockwise matrix
  product (its bf16 roundings the identity, its accumulator zero) followed by the row scale is the reference's
  `dot_general` followed by its product with a broadcast column. No algebraic law beyond re-indexing the product's sum
  is used, and the precondition is not needed.

  * `Spec`: the two whole-array functions; `LibColumn`: a vector as a column, by reshape or by broadcast.
  * `Region0`, `Region1`: each region's result array as that function of the arrays the region is entered with.
  * `Boundary`: what those arrays are, as functions of the arguments; `KernelValue`: the chain.
  * `RefBridge`: the reference's stages as the same functions.
  * `KernelRun`: the kernel program's run with its result named.
-/
import proofs.«154166_j17008070492258_1_alg».proof.Defs
import proofs.«154166_j17008070492258_1_alg».proof.Proof.Gen.Kernel
import proofs.«154166_j17008070492258_1_alg».proof.Proof.Gen.Kernel.Frame
import proofs.«154166_j17008070492258_1_alg».proof.Proof.Gen.KernelIdeal
import proofs.«154166_j17008070492258_1_alg».proof.Proof.Gen.KernelIdeal.Frame
import proofs.«154166_j17008070492258_1_alg».proof.Proof.Gen.ReferenceIdeal
import proofs.«154166_j17008070492258_1_alg».proof.Proof.Gen.ReferenceIdeal.Run
import proofs.«154166_j17008070492258_1_alg».proof.Proof.Gen.ReferenceIdeal.Read
import proofs.«154166_j17008070492258_1_alg».proof.Proof.Gen.Pre_finite_inputs
import proofs.«154166_j17008070492258_1_alg».proof.Proof.KernelRun
import proofs.«154166_j17008070492258_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Final.result m ρ c), (h c).2⟩)
      (Cert.KernelIdeal.Run.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
